-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x128 : Shape := ⟨3, ![32, 1024, 128]⟩
abbrev S32x1024x1024 : Shape := ⟨3, ![32, 1024, 1024]⟩
abbrev S_ : Shape := ⟨0, ![]⟩

class Facts : Prop where
  bcast_S_S32x1024x128 : S_.BroadcastsInDim S32x1024x128 (![] : Fin 0 → Fin S32x1024x128.rank)
  reducesTo_S32x1024x128_S_d0_1_2 : S32x1024x128.ReducesTo [0, 1, 2] S_
  h_S_ : 0 < S_.numel
  bcast_S_S32x1024x1024 : S_.BroadcastsInDim S32x1024x1024 (![] : Fin 0 → Fin S32x1024x1024.rank)
  reducesTo_S32x1024x1024_S_d0_1_2 : S32x1024x1024.ReducesTo [0, 1, 2] S_

variable [Facts]

def fn {F : FTy → Type} [FloatOps F] (main_arg0 : FVec F S32x1024x128 .f32) (main_arg1 : FVec F S32x1024x1024 .f32) : IVec S_ 1 :=
  let main_v0 : FVec F S32x1024x128 .f32 := Host.absf main_arg0
  let main_cst : FVec F S_ .f32 := constant S_ .f32 0x7F800000#32
  let main_v1 : FVec F S32x1024x128 .f32 := broadcastInDim S32x1024x128 ![] bcast_S_S32x1024x128 main_cst
  let main_v2 : IVec S32x1024x128 1 := cmpf .olt main_v0 main_v1
  let main_c : IVec S_ 1 := constantI S_ 1 1#1
  let main_v3 : IVec S_ 1 := (fun x v => Host.reduce IntOp.andi x v reducesTo_S32x1024x128_S_d0_1_2 h_S_) main_v2 main_c
  let main_v4 : FVec F S32x1024x1024 .f32 := Host.absf main_arg1
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  main_v8
-- ==== Kernel.lean ====
abbrev S32x1024x128 : Shape := ⟨3, ![32, 1024, 128]⟩
abbrev S32x1024x1024 : Shape := ⟨3, ![32, 1024, 1024]⟩
abbrev S1x1024x1024 : Shape := ⟨3, ![1, 1024, 1024]⟩
abbrev S1x1024x128 : Shape := ⟨3, ![1, 1024, 128]⟩
abbrev S1024x1024 : Shape := ⟨2, ![1024, 1024]⟩
abbrev S1024x128 : Shape := ⟨2, ![1024, 128]⟩

abbrev nBuf : Space → Nat
  | .hbm => 3
  | .vmem => 6
  | .smem => 0
  | _ => 0

abbrev bufTy : (tb : Table) → Fin (tcTables nBuf tb) → BufTy
  | .hbm, ⟨0, _⟩ => ⟨S32x1024x128, .f32⟩
  | .hbm, ⟨1, _⟩ => ⟨S32x1024x1024, .f32⟩
  | .hbm, ⟨2, _⟩ => ⟨S32x1024x128, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x128, .f32⟩
  | .local _ .vmem, ⟨5, _⟩ => ⟨S1x1024x128, .f32⟩
  | _, _ => ⟨S32x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  iota_S1024x1024_d0_w32 : S1024x1024.Iotas .tc 32 [0]
  iota_S1024x1024_d1_w32 : S1024x1024.Iotas .tc 32 [1]
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S32x1024x1024.size a
  hwx0_0 : ∀ i : grid0.Coords, EltTy.bits .f32 = 32 ∨ (Rect.block (s := S32x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S32x1024x128.size a
  hwx0_1 : ∀ i : grid0.Coords, EltTy.bits .f32 = 32 ∨ (Rect.block (s := S32x1024x128) S1x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x128.size a ≤ S32x1024x128.size a
  hwx0_2 : ∀ i : grid0.Coords, EltTy.bits .f32 = 32 ∨ (Rect.block (s := S32x1024x128) S1x1024x128.size (cc0_transform_2 i) (hinb0_2 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg1) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x1024x128 : Shape := ⟨3, ![32, 1024, 128]⟩
abbrev S32x1024x1024 : Shape := ⟨3, ![32, 1024, 1024]⟩
abbrev S1024x1024 : Shape := ⟨2, ![1024, 1024]⟩
abbrev S_ : Shape := ⟨0, ![]⟩
abbrev S1x1024x1024 : Shape := ⟨3, ![1, 1024, 1024]⟩

abbrev nBuf : Space → Nat
  | .hbm => 16
  | .vmem => 0
  | .smem => 0
  | _ => 0

abbrev bufTy : (tb : Table) → Fin (tcTables nBuf tb) → BufTy
  | .hbm, ⟨0, _⟩ => ⟨S32x1024x128, .f32⟩
  | .hbm, ⟨1, _⟩ => ⟨S32x1024x1024, .f32⟩
  | .hbm, ⟨2, _⟩ => ⟨S1024x1024, .i32⟩
  | .hbm, ⟨3, _⟩ => ⟨S1024x1024, .i32⟩
  | .hbm, ⟨4, _⟩ => ⟨S_, .i32⟩
  | .hbm, ⟨5, _⟩ => ⟨S1024x1024, .i32⟩
  | .hbm, ⟨6, _⟩ => ⟨S1024x1024, .i32⟩
  | .hbm, ⟨7, _⟩ => ⟨S1024x1024, .i1⟩
  | .hbm, ⟨8, _⟩ => ⟨S1024x1024, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S1x1024x1024, .f32⟩
  | .hbm, ⟨13, _⟩ => ⟨S32x1024x1024, .f32⟩
  | .hbm, ⟨14, _⟩ => ⟨S32x1024x1024, .f32⟩
  | .hbm, ⟨15, _⟩ => ⟨S32x1024x128, .f32⟩
  | _, _ => ⟨S32x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S32x1024x1024_0_1_2 : S1x1024x1024.BroadcastsInDim S32x1024x1024 (![0, 1, 2] : Fin 3 → Fin S32x1024x1024.rank)
  dot_S32x1024x1024_S32x1024x128_S32x1024x128_2_1_1_2_0_0_wf : DotDims.WF S32x1024x1024 S32x1024x128 S32x1024x128 [2] [1] [1] [2] [0] [0]

variable [Facts₀]

def dot_S32x1024x1024_S32x1024x128_S32x1024x128_2_1_1_2_0_0 : DotDims S32x1024x1024 S32x1024x128 S32x1024x128 where
  lhsContracting := [2]
  rhsContracting := [1]
  lhsNonContracting := [1]
  rhsNonContracting := [2]
  lhsBatch := [0]
  rhsBatch := [0]
  wf := dot_S32x1024x1024_S32x1024x128_S32x1024x128_2_1_1_2_0_0_wf

class Facts : Prop extends Facts₀ where

variable [Facts]
-- ==== Proof.OffDiagonal.lean ====
/-
  Neighbour aggregation with the diagonal removed, on the extended reals.

  For an adjacency array `adj[b, r, k]` and a feature array `means[b, k, f]` the aggregated feature is
      out[b, r, f] = Σ_k offDiag(adj)[b, r, k] · means[b, k, f],
  where `offDiag` replaces the diagonal entries (`r = k`) by zero and keeps the others.
  Two spellings of the off-diagonal entry meet here. One selects between the entry and zero by the test `r ≠ k` on
  32-bit row and column numbers. The other multiplies the entry by `1 − δ`, with `δ` the number one on the diagonal and
  zero off it. They agree at every extended real `a`, the infinities included: `a · (1 − 0) = a · 1 = a` and
  `a · (1 − 1) = a · 0 = 0`, the product with zero being zero by convention. No finiteness is used.
-/
import Idealize.ShloMosaic.PureOps.Ideal.Laws
import Idealize.ShloMosaic.Lib.ValueIdx
import Idealize.ShloMosaic.Lib.IdealHost

noncomputable section

namespace Cert.OffDiagonal

open Idealize.ShloMosaic Idealize.ShloMosaic.ValueIdx
open scoped BigOperators

abbrev SFeat : Shape := ⟨3, ![32, 1024, 128]⟩
abbrev SAdj : Shape := ⟨3, ![32, 1024, 1024]⟩

/-- The adjacency entry with the diagonal zeroed. -/
def offDiag (a : EReal) (r k : Fin 1024) : EReal := if r = k then 0 else a

/-- The aggregated feature at batch `b`, row `r`, feature `f`. -/
def aggAt (means : SFeat.Idx → EReal) (adj : SAdj.Idx → EReal) (b : Fin 32) (r : Fin 1024) (f : Fin 128) : EReal :=
  ∑ k : Fin 1024, offDiag (adj (ix3 b r k)) r k * means (ix3 b k f)

/-- The aggregated feature array. -/
def agg (means : SFeat.Idx → EReal) (adj : SAdj.Idx → EReal) : SFeat.Idx → EReal :=
  fun y => aggAt means adj (y 0) (y 1) (y 2)

/-- Row and column numbers below 1024 are equal as 32-bit words exactly when they are equal. -/
theorem word_eq_iff (r k : Fin 1024) : BitVec.ofNat 32 r.val = BitVec.ofNat 32 k.val ↔ r = k := by
  constructor
  · intro h
    have h' := congrArg BitVec.toNat h
    simp only [BitVec.toNat_ofNat] at h'
    have hr := r.isLt
    have hk := k.isLt
    apply Fin.ext
    omega
  · intro h; rw [h]

/-- The test `r ≠ k` on the words is the bit one off the diagonal and zero on it. -/
theorem cmpi_ne_word (r k : Fin 1024) :
    IntOp.cmpi .ne (BitVec.ofNat 32 r.val) (BitVec.ofNat 32 k.val) = if r = k then 0#1 else 1#1 := by
  unfold IntOp.cmpi
  by_cases h : r = k
  · subst h; simp
  · have hw : ¬ BitVec.ofNat 32 r.val = BitVec.ofNat 32 k.val := fun e => h ((word_eq_iff r k).mp e)
    rw [if_neg h, show (BitVec.ofNat 32 r.val != BitVec.ofNat 32 k.val) = true from bne_iff_ne.mpr hw]
    rfl

/-- The test `r + 0 = k` on the words is the bit one on the diagonal and zero off it. -/
theorem cmpi_eq_word (r k : Fin 1024) :
    IntOp.cmpi .eq (IntOp.addi (BitVec.ofNat 32 r.val) 0#32) (BitVec.ofNat 32 k.val) = if r = k then 1#1 else 0#1 := by
  unfold IntOp.cmpi IntOp.addi
  rw [BitVec.add_zero]
  by_cases h : r = k
  · subst h; simp
  · have hw : ¬ BitVec.ofNat 32 r.val = BitVec.ofNat 32 k.val := fun e => h ((word_eq_iff r k).mp e)
    rw [if_neg h, show (BitVec.ofNat 32 r.val == BitVec.ofNat 32 k.val) = false from beq_eq_false_iff_ne.mpr hw]
    rfl

/-- Selecting the entry off the diagonal and the zero pattern on it is the off-diagonal entry. -/
theorem select_offDiag (a : EReal) (r k : Fin 1024) :
    Scalar.select (IntOp.cmpi .ne (BitVec.ofNat 32 r.val) (BitVec.ofNat 32 k.val)) a (Ideal.ofBits .f32 0x00000000#32)
      = offDiag a r k := by
  rw [cmpi_ne_word, Ideal.ofBits_zero_f32]
  unfold offDiag
  by_cases h : r = k
  · rw [if_pos h, if_pos h]; exact select_zero _ _
  · rw [if_neg h, if_neg h]; exact select_one _ _

/-- One minus one is zero on the extended reals (both are real). -/
theorem one_sub_one : (1 : EReal) - 1 = 0 := by
  rw [← EReal.coe_one, ← EReal.coe_sub, sub_self, EReal.coe_zero]

/-- The entry times one minus the diagonal indicator is the off-diagonal entry, at every extended real. -/
theorem mul_one_sub_offDiag (a : EReal) (r k : Fin 1024) :
    a * (Ideal.ofBits .f32 0x3F800000#32
          - (((IntOp.cmpi .eq (IntOp.addi (BitVec.ofNat 32 r.val) 0#32) (BitVec.ofNat 32 k.val)).toNat : ℝ) : EReal))
      = offDiag a r k := by
  rw [cmpi_eq_word, Ideal.ofBits_one_f32]
  unfold offDiag
  by_cases h : r = k
  · rw [if_pos h, if_pos h]
    have e : ((1 : EReal) - (((1#1 : BitVec 1).toNat : ℝ) : EReal)) = 0 := by
      show (1 : EReal) - ((1 : ℕ) : ℝ) = 0
      rw [Nat.cast_one, EReal.coe_one]
      exact one_sub_one
    rw [e, mul_zero]
  · rw [if_neg h, if_neg h]
    have e : ((1 : EReal) - (((0#1 : BitVec 1).toNat : ℝ) : EReal)) = 1 := by
      show (1 : EReal) - ((0 : ℕ) : ℝ) = 1
      norm_num
    rw [e, mul_one]

end Cert.OffDiagonal

end
-- ==== Proof.LibPlainMatmul.lean ====
/-
  A plain matrix product read at an index, on the extended reals.

  For dimension numbers that contract the left operand's axis 1 with the right operand's axis 0, keep the left
  operand's axis 0 and the right operand's axis 1 as the result's two axes in that order, and have no batch axis
  — an `[M, K]` array times a `[K, N]` array —, the product into a zero accumulator has at `(a, v)` the entry
  `Σ_k lhs[a, k] · rhs[k, v]`, the sum taken over the `K` contraction positions in their natural order.
  The library states the product's entry as a sum over the record's own contraction index set, with the operands
  read at the record's index maps; here those maps are evaluated axis by axis for such a record and the sum is
  re-indexed by the one contraction coordinate.
-/
import Idealize.ShloMosaic.PureOps.Ideal.Laws
import Idealize.ShloMosaic.Lib.ValueIdx

noncomputable section

namespace Cert.PlainMatmul

open Idealize.ShloMosaic Idealize.ShloMosaic.ValueIdx
open scoped BigOperators

variable {M K N : ℕ} (d : DotDims ⟨2, ![M, K]⟩ ⟨2, ![K, N]⟩ ⟨2, ![M, N]⟩)

/-- The left operand's row coordinate is the result's row coordinate: axis 0 is the left operand's only kept axis,
    and with no batch axis it is the result's first. -/
theorem lhs_row (hb : d.lhsBatch = []) (hn : d.lhsNonContracting = [0]) (j : (⟨2, ![M, N]⟩ : Shape).Idx) (k : d.contr.Idx) :
    (d.lhsIdx j k 0).val = (j 0).val := by
  unfold DotDims.lhsIdx
  rw [dif_neg (by rw [hb]; exact List.not_mem_nil), dif_pos (by rw [hn]; exact List.mem_singleton.mpr rfl)]
  simp only [Fin.val_cast]
  have key : ∀ (p : Nat) (hp : p < 2), p = 0 → (j ⟨p, hp⟩).val = (j 0).val := fun p hp h => by subst h; rfl
  exact key _ _ (by simp [hb, hn])

/-- The right operand's column coordinate is the result's column coordinate: axis 1 is the right operand's only kept
    axis, and it comes after the left operand's one kept axis among the result's. -/
theorem rhs_col (hlb : d.lhsBatch = []) (hrb : d.rhsBatch = []) (hln : d.lhsNonContracting = [0])
    (hrn : d.rhsNonContracting = [1]) (j : (⟨2, ![M, N]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p : Nat) (hp : p < 2), p = 1 → (j ⟨p, hp⟩).val = (j 1).val := fun p hp h => by subst h; rfl
  exact key _ _ (by simp [hlb, hln, hrn])

/-- THE ENTRY: into the zero accumulator, at `(a, v)`, the sum over `k` of `lhs[a, k] · rhs[k, v]`. -/
theorem matmul_zero_apply {φ₁ φ₂ : FTy} (hlb : d.lhsBatch = []) (hrb : d.rhsBatch = []) (hln : d.lhsNonContracting = [0])
    (hrn : d.rhsNonContracting = [1]) (hlc : d.lhsContracting = [1]) (hrc : d.rhsContracting = [0])
    (prec : Option ContractPrecision) (lhs : FVec Ideal ⟨2, ![M, K]⟩ φ₁) (rhs : FVec Ideal ⟨2, ![K, N]⟩ φ₂) (a : Fin M) (v : Fin N) :
    matmul d prec lhs rhs (constant ⟨2, ![M, N]⟩ .f32 0x00000000#32) (ix2 a v) = ∑ k : Fin K, lhs (ix2 a k) * rhs (ix2 k v) := by
  show FloatOps.matmul d prec lhs rhs (constant ⟨2, ![M, N]⟩ .f32 0x00000000#32) (ix2 a v) = _
  rw [Ideal.matmul_constant_zero_apply]
  have hr : d.contr.rank = 1 := by rw [d.rank_contr, hlc]; rfl
  have hs : d.contr.size ⟨0, by omega⟩ = K := by
    rw [d.size_contr 0 (by rw [hlc]; exact Nat.one_pos)]; simp [hlc]
  rw [← Equiv.sum_comp (contrEquiv1 d K hr hs).symm]
  refine Finset.sum_congr rfl fun k _ => ?_
  have e1 : d.lhsIdx (ix2 a v) ((contrEquiv1 d K hr hs).symm k) = ix2 a k := by
    funext ax; apply Fin.ext
    match ax with
    | ⟨0, _⟩ => exact lhs_row d hlb hln _ _
    | ⟨1, _⟩ => exact (d.lhsIdx_val_of_single hlc _ _).trans (contrEquiv1_symm_val d K hr hs k)
  have e2 : d.rhsIdx (ix2 a v) ((contrEquiv1 d K hr hs).symm k) = ix2 k v := by
    funext ax; apply Fin.ext
    match ax with
    | ⟨0, _⟩ => exact (d.rhsIdx_val_of_single hrc _ _).trans (contrEquiv1_symm_val d K hr hs k)
    | ⟨1, _⟩ => exact rhs_col d hlb hrb hln hrn _ _
  rw [e1, e2]

end Cert.PlainMatmul

end
-- ==== Proof.BlockProduct.lean ====
/-
  What the kernel body stores, read at an index of its output block.

  At one grid point the body holds one batch's adjacency block `x0 : [1, 1024, 1024]` and feature block
  `x1 : [1, 1024, 128]`. It drops the unit axis of both, replaces the diagonal of the adjacency by zero (a select on the
  test "row number ≠ column number"), narrows both operands (the identity on the extended reals), multiplies them into
  a zero accumulator and puts the unit axis back. At `(0, r, f)` the stored value is therefore
      Σ_k offDiag(x0[0, r, k]) · x1[0, k, f].
-/
import proofs.«115781_j20761871909282_1_alg».proof.Proof.Gen.KernelIdeal.Skeleton
import proofs.«115781_j20761871909282_1_alg».proof.Proof.OffDiagonal
import proofs.«115781_j20761871909282_1_alg».proof.Proof.LibPlainMatmul
import Idealize.ShloMosaic.Lib.Pipeline.Value
import Idealize.ShloMosaic.Lib.ValueLayout

noncomputable section

namespace Cert.BlockProduct

open Idealize.ShloMosaic Idealize.ShloMosaic.ValueIdx
open Cert.KernelIdeal Cert.KernelIdeal.Gen Cert.OffDiagonal
open scoped BigOperators

/-- An integer compare of two vectors reads, at an index, the compare of their entries there. -/
theorem cmpi_apply {s : Shape} {w : Nat} (p : CmpIPredicate) (x y : IVec s w) (i : s.Idx) :
    cmpi p x y i = IntOp.cmpi p (x i) (y i) := rfl

/-- The stored block at `(u, r, f)`: the sum over the column number `k` of the off-diagonal adjacency entry of row `r`
    times the feature entry of row `k`. -/
theorem payload_apply (x0 : Vec Ideal S1x1024x1024 .f32) (x1 : Vec Ideal S1x1024x128 .f32)
    (u : Fin 1) (r : Fin 1024) (f : Fin 128) :
    k0_pay1 (F := Ideal) x0 x1 (ix3 u r f)
      = ∑ k : Fin 1024, offDiag (x0 (ix3 (0 : Fin 1) r k)) r k * x1 (ix3 (0 : Fin 1) k f) := by
  unfold k0_pay1
  dsimp only
  rw [shapeCast_ab_1ab_apply]
  rw [Cert.PlainMatmul.matmul_zero_apply _ rfl rfl rfl rfl rfl rfl]
  refine Finset.sum_congr rfl fun k _ => ?_
  rw [truncf_apply, truncf_apply, select_apply, cmpi_apply, iota_single_apply, iota_single_apply,
    shapeCast_1ab_ab_apply, shapeCast_1ab_ab_apply, broadcast_apply]
  exact congrArg (· * x1 (ix3 (0 : Fin 1) k f)) (select_offDiag (x0 (ix3 (0 : Fin 1) r k)) r k)

end Cert.BlockProduct

end
-- ==== Proof.KernelArray.lean ====
/-
  From the kernel's blocks to its result array.

  The grid has one point per batch. At point `t` the adjacency window's block is batch `t` of the adjacency array, the
  feature window's block is batch `t` of the feature array, and the output window's block is batch `t` of the result
  array: every block index is `(t, 0, 0)` with block extents `(1, 1024, ·)`, so block coordinate `(u, r, f)` sits at array
  coordinate `(t, r, f)`. What point `t` writes back is therefore batch `t` of the aggregated feature array, the 32
  batches cover the result array, and the array ends holding the aggregated features.
-/
import proofs.«115781_j20761871909282_1_alg».proof.Proof.Gen.KernelIdeal.Value
import proofs.«115781_j20761871909282_1_alg».proof.Proof.BlockProduct
import Idealize.ShloMosaic.Lib.Pipeline.Value

noncomputable section

namespace Cert.KernelArray

open Idealize.ShloMosaic Idealize.ShloMosaic.TcCoe Idealize.ShloMosaic.ValueIdx Idealize.SL.Sem
open Idealize.ShloMosaic.Pipeline (Dat)
open Cert.KernelIdeal Cert.KernelIdeal.Gen Cert.OffDiagonal Cert.BlockProduct
open scoped BigOperators

variable (m : (ℓ : Loc nD τ sig) → Buf (Elt Ideal) ℓ) (ρ : Dev nD → PrngReg)

theorem zero_offsets : (![0, 0, 0] : Fin 3 → Nat) = fun _ => 0 := funext fun a => by fin_cases a <;> rfl

/-- The three index maps over the grid: each sends point `t` to block `(t, 0, 0)`. -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- One batch: a stored block whose two loaded blocks are batch `b` of the two arrays is batch `b` of the aggregated
    features. -/
theorem block_eq (x0 : Vec Ideal S1x1024x1024 .f32) (x1 : Vec Ideal S1x1024x128 .f32)
    (means : SFeat.Idx → EReal) (adj : SAdj.Idx → EReal) (b : Fin 32)
    (h0 : ∀ (r k : Fin 1024), x0 (ix3 (0 : Fin 1) r k) = adj (ix3 b r k))
    (h1 : ∀ (k : Fin 1024) (f : Fin 128), x1 (ix3 (0 : Fin 1) k f) = means (ix3 b k f))
    (j : S1x1024x128.Idx) :
    k0_pay1 (F := Ideal) x0 x1 j = aggAt means adj b (j 1) (j 2) := by
  obtain ⟨u, r, f, rfl⟩ : ∃ (u : Fin 1) (r : Fin 1024) (f : Fin 128), j = ix3 u r f := ⟨j 0, j 1, j 2, eq_ix3 j⟩
  rw [payload_apply]
  unfold aggAt
  refine Finset.sum_congr rfl fun k _ => ?_
  rw [h0, h1]

/-- WHAT POINT `t` WRITES BACK is block `t` of the aggregated feature array of the argument arrays. -/
theorem flushed_eq (c : Dev nD) (t : Fin cfg0.N) :
    (dats m 0 c).flushed 2 t
      = ((cfg0.win 2).blk t).view.read (Elt Ideal) (agg (V m c main_arg0) (V m c main_arg1)) := by
  rw [Cert.KernelIdeal.Value.flushed2]
  unfold out0_2
  rw [View.canon_unit_zero zero_offsets]
  simp only [View.ld_unit_zero (S := S1x1024x1024) zero_offsets, View.ld_unit_zero (S := S1x1024x128) zero_offsets]
  obtain ⟨a0, a1, a2, b0, b1, b2, o0, o1, o2⟩ := index_facts t
  have ht : t.val < 32 := t.isLt
  funext j
  show k0_pay1 (F := Ideal) (iblk m c 0 t) (iblk m c 1 t) j
    = agg (V m c main_arg0) (V m c main_arg1) (((cfg0.win 2).blk t).view.emb j)
  refine (block_eq (iblk m c 0 t) (iblk m c 1 t) (V m c main_arg0) (V m c main_arg1) ⟨t.val, ht⟩ ?_ ?_ j).trans ?_
  · intro r k
    show V m c main_arg1 (((cfg0.win 0).blk t).view.emb (ix3 (0 : Fin 1) r k)) = V m c main_arg1 (ix3 ⟨t.val, ht⟩ r k)
    refine congrArg (V m c main_arg1) (funext fun a => Fin.ext ?_)
    match a with
    | ⟨0, _⟩ => show win0_0.index t (0 : Fin 3) * 1 + 1 * 0 = t.val; omega
    | ⟨1, _⟩ => show win0_0.index t (1 : Fin 3) * 1024 + 1 * r.val = r.val; omega
    | ⟨2, _⟩ => show win0_0.index t (2 : Fin 3) * 1024 + 1 * k.val = k.val; omega
  · intro k f
    show V m c main_arg0 (((cfg0.win 1).blk t).view.emb (ix3 (0 : Fin 1) k f)) = V m c main_arg0 (ix3 ⟨t.val, ht⟩ k f)
    refine congrArg (V m c main_arg0) (funext fun a => Fin.ext ?_)
    match a with
    | ⟨0, _⟩ => show win0_1.index t (0 : Fin 3) * 1 + 1 * 0 = t.val; omega
    | ⟨1, _⟩ => show win0_1.index t (1 : Fin 3) * 1024 + 1 * k.val = k.val; omega
    | ⟨2, _⟩ => show win0_1.index t (2 : Fin 3) * 128 + 1 * f.val = f.val; omega
  · show aggAt (V m c main_arg0) (V m c main_arg1) ⟨t.val, ht⟩ (j 1) (j 2)
      = aggAt (V m c main_arg0) (V m c main_arg1) ((((cfg0.win 2).blk t).view.emb j) 0)
          ((((cfg0.win 2).blk t).view.emb j) 1) ((((cfg0.win 2).blk t).view.emb j) 2)
    have hj0 : (j 0).val < 1 := (j 0).isLt
    have e0 : (⟨t.val, ht⟩ : Fin 32) = (((cfg0.win 2).blk t).view.emb j) 0 :=
      Fin.ext (by show t.val = win0_2.index t (0 : Fin 3) * 1 + 1 * (j 0).val; omega)
    have e1 : (j 1 : Fin 1024) = (((cfg0.win 2).blk t).view.emb j) 1 :=
      Fin.ext (by show (j 1).val = win0_2.index t (1 : Fin 3) * 1024 + 1 * (j 1).val; omega)
    have e2 : (j 2 : Fin 128) = (((cfg0.win 2).blk t).view.emb j) 2 :=
      Fin.ext (by show (j 2).val = win0_2.index t (2 : Fin 3) * 128 + 1 * (j 2).val; omega)
    rw [e0, e1, e2]

/-- An index of the result array is in point `t`'s block iff each coordinate is in the block's range on its axis. -/
theorem mem_blk (t : Fin cfg0.N) (i : S32x1024x128.Idx) :
    i ∈ ((cfg0.win 2).blk t).view.set ↔ ∀ a : Fin 3, win0_2.index t a * S1x1024x128.size a ≤ (i a).val
      ∧ (i a).val < win0_2.index t a * S1x1024x128.size a + S1x1024x128.size a := by
  show i ∈ ((View.whole main_v0).slice (win0_2.rect t)).set ↔ _
  rw [View.set_slice_whole, Rect.mem_set_unit]
  exact Iff.rfl

/-- Every index of the result array lies in the block of the point numbered by its batch coordinate. -/
theorem covered (i : S32x1024x128.Idx) :
    ∃ t : Fin cfg0.N, (cfg0.win 2).flush t = true ∧ i ∈ ((cfg0.win 2).blk t).view.set := by
  have hi0 : (i 0).val < 32 := (i 0).isLt
  have hi1 : (i 1).val < 1024 := (i 1).isLt
  have hi2 : (i 2).val < 128 := (i 2).isLt
  refine ⟨⟨(i 0).val, hi0⟩, flush0_2 _, ?_⟩
  obtain ⟨-, -, -, -, -, -, o0, o1, o2⟩ := index_facts ⟨(i 0).val, hi0⟩
  have o0' : win0_2.index ⟨(i 0).val, hi0⟩ (0 : Fin 3) = (i 0).val := o0
  rw [mem_blk]
  intro a
  match a with
  | ⟨0, _⟩ =>
    show win0_2.index ⟨(i 0).val, hi0⟩ (0 : Fin 3) * 1 ≤ (i 0).val
      ∧ (i 0).val < win0_2.index ⟨(i 0).val, hi0⟩ (0 : Fin 3) * 1 + 1
    rw [o0']; omega
  | ⟨1, _⟩ =>
    show win0_2.index ⟨(i 0).val, hi0⟩ (1 : Fin 3) * 1024 ≤ (i 1).val
      ∧ (i 1).val < win0_2.index ⟨(i 0).val, hi0⟩ (1 : Fin 3) * 1024 + 1024
    rw [o1]; omega
  | ⟨2, _⟩ =>
    show win0_2.index ⟨(i 0).val, hi0⟩ (2 : Fin 3) * 128 ≤ (i 2).val
      ∧ (i 2).val < win0_2.index ⟨(i 0).val, hi0⟩ (2 : Fin 3) * 128 + 128
    rw [o2]; omega

/-- THE RESULT ARRAY after the run: the aggregated features of the argument arrays. -/
theorem final (c : Dev nD) :
    (dats m 0 c).arrAt 2 cfg0.N
      = agg (m ((c : Thread nD τ).loc main_arg0)) (m ((c : Thread nD τ).loc main_arg1)) :=
  (dats m 0 c).arrAt_eq_of_cover 2 (agg (V m c main_arg0) (V m c main_arg1)) (fun t _ => flushed_eq m c t) covered

/-- The kernel's run, read: the result array at the aggregated features, the arguments unchanged. -/
theorem run : θ_run defs (onTc (τ := τ) (main (F := Ideal))) ⟨m, fun _ => 0, ρ⟩ fun r => ∀ c : Dev nD,
      r.2.mem ((c : Thread nD τ).loc main_v0)
        = agg (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelArray

end
-- ==== Proof.ReferenceSum.lean ====
/-
  The reference's result is the aggregated feature array.

  The reference builds the mask `1 − eye` from two row/column number arrays (`r + 0 = k` converted to a number and
  subtracted from one), spreads it over the batch axis, multiplies the adjacency by it entry by entry and contracts
  the column axis of the product with the row axis of the features, batch by batch. Read at `(b, r, f)` this is
      Σ_k (adj[b, r, k] · (1 − δ_{rk})) · means[b, k, f],
  and `adj · (1 − δ)` is the off-diagonal entry at every extended real.
-/
import proofs.«115781_j20761871909282_1_alg».proof.Proof.Gen.ReferenceIdeal.Read
import proofs.«115781_j20761871909282_1_alg».proof.Proof.OffDiagonal

noncomputable section

namespace Cert.ReferenceSum

open Idealize.ShloMosaic Idealize.ShloMosaic.ValueIdx
open Cert.ReferenceIdeal Cert.ReferenceIdeal.Read Cert.OffDiagonal
open scoped BigOperators

/-- The reference's last stage, as a function of the two arguments, is the aggregated feature array. -/
theorem stage_eq_agg (x0 : FVec Ideal S32x1024x128 .f32) (x1 : FVec Ideal S32x1024x1024 .f32) :
    val_main_v11 (F := Ideal) x0 x1 = agg x0 x1 := by
  funext i
  obtain ⟨b, r, f, rfl⟩ : ∃ (b : Fin 32) (r : Fin 1024) (f : Fin 128), i = ix3 b r f := ⟨i 0, i 1, i 2, eq_ix3 i⟩
  rw [val_main_v11_apply]
  show _ = ∑ k : Fin 1024, offDiag (x1 (ix3 b r k)) r k * x0 (ix3 b k f)
  refine Finset.sum_congr rfl fun k _ => ?_
  have el : lidx_main_v11 (ix3 b r f) k = ix3 b r k :=
    funext fun a => Fin.ext (by match a with | ⟨0, _⟩ => rfl | ⟨1, _⟩ => rfl | ⟨2, _⟩ => rfl)
  have er : ridx_main_v11 (ix3 b r f) k = ix3 b k f :=
    funext fun a => Fin.ext (by match a with | ⟨0, _⟩ => rfl | ⟨1, _⟩ => rfl | ⟨2, _⟩ => rfl)
  rw [el, er, val_main_v10_apply, val_main_v9_apply, val_main_v8_apply, val_main_v7_apply, val_main_v6_apply,
    val_main_cst_apply, val_main_v5_apply, val_main_v4_apply, val_main_v3_apply, val_main_v0_apply, val_main_v2_apply,
    val_main_c_apply, val_main_v1_apply]
  exact congrArg (· * x0 (ix3 b k f)) (mul_one_sub_offDiag (x1 (ix3 b r k)) r k)

end Cert.ReferenceSum

end
-- ==== Proof.lean ====
/-
  GCN neighbour aggregation: out[b] = (adj[b] with its diagonal zeroed) · means[b], one batch per grid point.

  On the extended reals both programs end with the same array,
      out[b, r, f] = Σ_k offDiag(adj)[b, r, k] · means[b, k, f].
  The kernel zeroes the diagonal by a select on "row number ≠ column number" and multiplies one batch's 1024 × 1024
  adjacency block by its 1024 × 128 feature block into a zero accumulator; the narrowing of both operands before
  the product is the identity on the extended reals. The reference multiplies the adjacency by the mask `1 − eye` and
  contracts with the features batch by batch. The two spellings of the off-diagonal entry agree at every extended
  real (`a · 1 = a`, `a · 0 = 0`), and the two sums run over the same 1024 column numbers in the same order, so the
  precondition (finite inputs) is not used for the value.
  The three frames are the kernel frames of both instances and the reference's run with its result dropped; the
  idealization rewrote nothing, so the preservation claim is trivial.
-/
import proofs.«115781_j20761871909282_1_alg».proof.Defs
import proofs.«115781_j20761871909282_1_alg».proof.Proof.Gen.Kernel
import proofs.«115781_j20761871909282_1_alg».proof.Proof.Gen.Kernel.Skeleton
import proofs.«115781_j20761871909282_1_alg».proof.Proof.Gen.Kernel.Launch
import proofs.«115781_j20761871909282_1_alg».proof.Proof.Gen.Kernel.Points
import proofs.«115781_j20761871909282_1_alg».proof.Proof.Gen.Kernel.Frame
import proofs.«115781_j20761871909282_1_alg».proof.Proof.Gen.KernelIdeal
import proofs.«115781_j20761871909282_1_alg».proof.Proof.Gen.KernelIdeal.Skeleton
import proofs.«115781_j20761871909282_1_alg».proof.Proof.Gen.KernelIdeal.Launch
import proofs.«115781_j20761871909282_1_alg».proof.Proof.Gen.KernelIdeal.Points
import proofs.«115781_j20761871909282_1_alg».proof.Proof.Gen.KernelIdeal.Frame
import proofs.«115781_j20761871909282_1_alg».proof.Proof.Gen.ReferenceIdeal
import proofs.«115781_j20761871909282_1_alg».proof.Proof.Gen.Pre_finite_inputs
import proofs.«115781_j20761871909282_1_alg».proof.Proof.Gen.KernelIdeal.Value
import proofs.«115781_j20761871909282_1_alg».proof.Proof.Gen.ReferenceIdeal.Run
import proofs.«115781_j20761871909282_1_alg».proof.Proof.Gen.ReferenceIdeal.Read
import proofs.«115781_j20761871909282_1_alg».proof.Proof.KernelArray
import proofs.«115781_j20761871909282_1_alg».proof.Proof.ReferenceSum
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel (hKernel := Cert.Kernel.Gen.facts)
    (hPre_finite_inputs := Cert.Pre_finite_inputs.Gen.facts) :=
  fun m ρ _ => Cert.Kernel.Gen.frame m ρ

/-- The idealized kernel runs and leaves its arguments unchanged. -/
theorem frame_kernelIdeal : Cert.frame_KernelIdeal (hKernelIdeal := Cert.KernelIdeal.Gen.facts)
    (hPre_finite_inputs := Cert.Pre_finite_inputs.Gen.facts) :=
  fun m ρ _ => Cert.KernelIdeal.Gen.frame m ρ

/-- The reference runs and leaves its arguments unchanged: its run with the result dropped. -/
theorem frame_reference : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- Both programs end with the aggregated feature array of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelArray.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v11_eq]
  exact Cert.ReferenceSum.stage_eq_agg _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
